-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x768x384 : Shape := ⟨3, ![1, 768, 384]⟩
abbrev S128x384 : Shape := ⟨2, ![128, 384]⟩
abbrev S128 : Shape := ⟨1, ![128]⟩
abbrev S128x256 : Shape := ⟨2, ![128, 256]⟩
abbrev S_ : Shape := ⟨0, ![]⟩

class Facts : Prop where
  bcast_S_S1x768x384 : S_.BroadcastsInDim S1x768x384 (![] : Fin 0 → Fin S1x768x384.rank)
  reducesTo_S1x768x384_S_d0_1_2 : S1x768x384.ReducesTo [0, 1, 2] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg4 : FVec F S128 .f32) (main_arg5 : FVec F S128x256 .f32) (main_arg6 : FVec F S128 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1x768x384 .f32) (main_arg1 : FVec F S128x384 .f32) (main_arg2 : FVec F S128 .f32) (main_arg3 : FVec F S128x384 .f32) (main_arg4 : FVec F S128 .f32) (main_arg5 : FVec F S128x256 .f32) (main_arg6 : FVec F S128 .f32) : IVec S_ 1 :=
  let main_v0 : FVec F S1x768x384 .f32 := Host.absf main_arg0
  let main_cst : FVec F S_ .f32 := constant S_ .f32 0x7F800000#32
  let main_v1 : FVec F S1x768x384 .f32 := broadcastInDim S1x768x384 ![] bcast_S_S1x768x384 main_cst
  let main_v2 : IVec S1x768x384 1 := cmpf .olt main_v0 main_v1
  let main_c : IVec S_ 1 := constantI S_ 1 1#1
  let main_v3 : IVec S_ 1 := (fun x v => Host.reduce IntOp.andi x v reducesTo_S1x768x384_S_d0_1_2 h_S_) main_v2 main_c
  let main_v4 : FVec F S128x384 .f32 := Host.absf main_arg1
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x384 .f32 := Host.absf main_arg3
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg4 main_arg5 main_arg6 main_v13 main_v16
-- ==== Kernel.lean ====
abbrev S1x768x384 : Shape := ⟨3, ![1, 768, 384]⟩
abbrev S128x384 : Shape := ⟨2, ![128, 384]⟩
abbrev S128 : Shape := ⟨1, ![128]⟩
abbrev S128x256 : Shape := ⟨2, ![128, 256]⟩
abbrev S768x384 : Shape := ⟨2, ![768, 384]⟩
abbrev S128x128 : Shape := ⟨2, ![128, 128]⟩
abbrev S768x128 : Shape := ⟨2, ![768, 128]⟩
abbrev S384x128 : Shape := ⟨2, ![384, 128]⟩
abbrev S1x128 : Shape := ⟨2, ![1, 128]⟩
abbrev S768x768x128 : Shape := ⟨3, ![768, 768, 128]⟩
abbrev S64x128 : Shape := ⟨2, ![64, 128]⟩
abbrev S64x128x128 : Shape := ⟨3, ![64, 128, 128]⟩
abbrev S64x1x128 : Shape := ⟨3, ![64, 1, 128]⟩
abbrev S1x128x128 : Shape := ⟨3, ![1, 128, 128]⟩
abbrev S1x1x128 : Shape := ⟨3, ![1, 1, 128]⟩
abbrev S1x768x768x128 : Shape := ⟨4, ![1, 768, 768, 128]⟩

abbrev nBuf : Space → Nat
  | .hbm => 16
  | .vmem => 22
  | .smem => 0
  | _ => 0

abbrev bufTy : (tb : Table) → Fin (tcTables nBuf tb) → BufTy
  | .hbm, ⟨0, _⟩ => ⟨S1x768x384, .f32⟩
  | .hbm, ⟨1, _⟩ => ⟨S128x384, .f32⟩
  | .hbm, ⟨2, _⟩ => ⟨S128, .f32⟩
  | .hbm, ⟨3, _⟩ => ⟨S128x384, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S768x384, .f32⟩
  | .hbm, ⟨8, _⟩ => ⟨S128x128, .f32⟩
  | .hbm, ⟨9, _⟩ => ⟨S128x128, .f32⟩
  | .hbm, ⟨10, _⟩ => ⟨S768x128, .f32⟩
  | .hbm, ⟨11, _⟩ => ⟨S768x128, .f32⟩
  | .hbm, ⟨12, _⟩ => ⟨S768x128, .f32⟩
  | .hbm, ⟨13, _⟩ => ⟨S768x128, .f32⟩
  | .hbm, ⟨14, _⟩ => ⟨S768x768x128, .f32⟩
  | .hbm, ⟨15, _⟩ => ⟨S1x768x768x128, .f32⟩
  | .local _ .vmem, ⟨0, _⟩ => ⟨S768x384, .f32⟩
  | .local _ .vmem, ⟨1, _⟩ => ⟨S128x384, .f32⟩
  | .local _ .vmem, ⟨2, _⟩ => ⟨S128, .f32⟩
  | .local _ .vmem, ⟨3, _⟩ => ⟨S128x384, .f32⟩
  | .local _ .vmem, ⟨4, _⟩ => ⟨S128, .f32⟩
  | .local _ .vmem, ⟨5, _⟩ => ⟨S128x128, .f32⟩
  | .local _ .vmem, ⟨6, _⟩ => ⟨S128x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S768x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S64x128x128, .f32⟩
  | .local _ .vmem, ⟨21, _⟩ => ⟨S64x128x128, .f32⟩
  | _, _ => ⟨S1x768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨2, ![12, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S64x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S1x768x384_S768x384 : S1x768x384.ShapeCasts S768x384
  slices_S128x256_S128x128_0_0 : S128x256.Slices ![0, 0] S128x128
  slices_S128x256_S128x128_0_128 : S128x256.Slices ![0, 128] S128x128
  inb_S768x384_S768x384_0_0 : ∀ a, (![0, 0] : Fin 2 → Nat) a + S768x384.size a ≤ S768x384.size a
  h_S768x384 : 0 < S768x384.numel
  shapeCasts_S768x384_S768x384 : S768x384.ShapeCasts S768x384
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  transposes_S128x384_p1_0_S384x128 : S128x384.Transposes [1, 0] S384x128
  inb_S128_S128_0 : ∀ a, (![0] : Fin 1 → Nat) a + S128.size a ≤ S128.size a
  h_S128 : 0 < S128.numel
  shapeCasts_S128_S1x128 : S128.ShapeCasts S1x128
  broadcasts_S1x128_S768x128 : S1x128.Broadcasts S768x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S768x128_S768x128_0_0 : ∀ a, (![0, 0] : Fin 2 → Nat) a + S768x128.size a ≤ S768x128.size a
  h_S768x128 : 0 < S768x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  shapeCasts_S128_S1x1x128 : S128.ShapeCasts S1x1x128
  broadcasts_S1x1x128_S64x128x128 : S1x1x128.Broadcasts S64x128x128
  inb_S64x128x128_S64x128x128_0_0_0 : ∀ a, (![0, 0, 0] : Fin 3 → Nat) a + S64x128x128.size a ≤ S64x128x128.size a
  h_S64x128x128 : 0 < S64x128x128.numel
  bcast_S768x768x128_S1x768x768x128_1_2_3 : S768x768x128.BroadcastsInDim S1x768x768x128 (![1, 2, 3] : Fin 3 → Fin S1x768x768x128.rank)
  dot_S768x384_S384x128_S768x128_1_0_0_1_n_n_wf : DotDims.WF S768x384 S384x128 S768x128 [1] [0] [0] [1] [] []
  dot_S768x128_S128x128_S768x128_1_0_0_1_n_n_wf : DotDims.WF S768x128 S128x128 S768x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S768x384.size a ≤ S768x384.size a
  hwx0_0 : ∀ i : grid0.Coords, EltTy.bits .f32 = 32 ∨ (Rect.block (s := S768x384) S768x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x128.size a ≤ S768x128.size a
  hwx0_7 : ∀ i : grid0.Coords, EltTy.bits .f32 = 32 ∨ (Rect.block (s := S768x128) S768x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768x128.size a ≤ S768x128.size a
  hwx0_8 : ∀ i : grid0.Coords, EltTy.bits .f32 = 32 ∨ (Rect.block (s := S768x128) S768x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768x128.size a ≤ S768x128.size a
  hwx0_9 : ∀ i : grid0.Coords, EltTy.bits .f32 = 32 ∨ (Rect.block (s := S768x128) S768x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768x128.size a ≤ S768x128.size a
  hwx0_10 : ∀ i : grid0.Coords, EltTy.bits .f32 = 32 ∨ (Rect.block (s := S768x128) S768x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S768x128.size a
  hwx1_0 : ∀ i : grid1.Coords, EltTy.bits .f32 = 32 ∨ (Rect.block (s := S768x128) S64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S768x128.size a
  hwx1_1 : ∀ i : grid1.Coords, EltTy.bits .f32 = 32 ∨ (Rect.block (s := S768x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S768x128.size a
  hwx1_2 : ∀ i : grid1.Coords, EltTy.bits .f32 = 32 ∨ (Rect.block (s := S768x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S768x128.size a
  hwx1_3 : ∀ i : grid1.Coords, EltTy.bits .f32 = 32 ∨ (Rect.block (s := S768x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x128x128.size a ≤ S768x768x128.size a
  hwx1_5 : ∀ i : grid1.Coords, EltTy.bits .f32 = 32 ∨ (Rect.block (s := S768x768x128) S64x128x128.size (cc1_transform_5 i) (hinb1_5 i)).WholeWords (EltTy.packing .f32)

variable [Facts₀]

def dot_S768x384_S384x128_S768x128_1_0_0_1_n_n : DotDims S768x384 S384x128 S768x128 where
  lhsContracting := [1]
  rhsContracting := [0]
  lhsNonContracting := [0]
  rhsNonContracting := [1]
  lhsBatch := []
  rhsBatch := []
  wf := dot_S768x384_S384x128_S768x128_1_0_0_1_n_n_wf
def dot_S768x128_S128x128_S768x128_1_0_0_1_n_n : DotDims S768x128 S128x128 S768x128 where
  lhsContracting := [1]
  rhsContracting := [0]
  lhsNonContracting := [0]
  rhsNonContracting := [1]
  lhsBatch := []
  rhsBatch := []
  wf := dot_S768x128_S128x128_S768x128_1_0_0_1_n_n_wf

abbrev win0_0 : Pipeline.Window sig grid0 :=
  Pipeline.Window.ofSpec (Memref.whole main_v0) S768x384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S768x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S768x128.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S768x128.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3_3) S768x128.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v3_0) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_2) S64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_3) S128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S64x128x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1x768x384 : Shape := ⟨3, ![1, 768, 384]⟩
abbrev S128x384 : Shape := ⟨2, ![128, 384]⟩
abbrev S128 : Shape := ⟨1, ![128]⟩
abbrev S128x256 : Shape := ⟨2, ![128, 256]⟩
abbrev S1x768x128 : Shape := ⟨3, ![1, 768, 128]⟩
abbrev S1x1x128 : Shape := ⟨3, ![1, 1, 128]⟩
abbrev S128x128 : Shape := ⟨2, ![128, 128]⟩
abbrev S1x768x1x128 : Shape := ⟨4, ![1, 768, 1, 128]⟩
abbrev S1x1x768x128 : Shape := ⟨4, ![1, 1, 768, 128]⟩
abbrev S1x768x768x128 : Shape := ⟨4, ![1, 768, 768, 128]⟩
abbrev S1x1x1x128 : Shape := ⟨4, ![1, 1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S1x768x384, .f32⟩
  | .hbm, ⟨1, _⟩ => ⟨S128x384, .f32⟩
  | .hbm, ⟨2, _⟩ => ⟨S128, .f32⟩
  | .hbm, ⟨3, _⟩ => ⟨S128x384, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S1x768x128, .f32⟩
  | .hbm, ⟨8, _⟩ => ⟨S1x1x128, .f32⟩
  | .hbm, ⟨9, _⟩ => ⟨S1x768x128, .f32⟩
  | .hbm, ⟨10, _⟩ => ⟨S1x768x128, .f32⟩
  | .hbm, ⟨11, _⟩ => ⟨S1x768x128, .f32⟩
  | .hbm, ⟨12, _⟩ => ⟨S1x1x128, .f32⟩
  | .hbm, ⟨13, _⟩ => ⟨S1x768x128, .f32⟩
  | .hbm, ⟨14, _⟩ => ⟨S1x768x128, .f32⟩
  | .hbm, ⟨15, _⟩ => ⟨S128x128, .f32⟩
  | .hbm, ⟨16, _⟩ => ⟨S1x768x128, .f32⟩
  | .hbm, ⟨17, _⟩ => ⟨S128x128, .f32⟩
  | .hbm, ⟨18, _⟩ => ⟨S1x768x128, .f32⟩
  | .hbm, ⟨19, _⟩ => ⟨S1x768x1x128, .f32⟩
  | .hbm, ⟨20, _⟩ => ⟨S1x1x768x128, .f32⟩
  | .hbm, ⟨21, _⟩ => ⟨S1x768x768x128, .f32⟩
  | .hbm, ⟨22, _⟩ => ⟨S1x768x768x128, .f32⟩
  | .hbm, ⟨23, _⟩ => ⟨S1x768x768x128, .f32⟩
  | .hbm, ⟨24, _⟩ => ⟨S1x1x1x128, .f32⟩
  | .hbm, ⟨25, _⟩ => ⟨S1x768x768x128, .f32⟩
  | .hbm, ⟨26, _⟩ => ⟨S1x768x768x128, .f32⟩
  | .hbm, ⟨27, _⟩ => ⟨S1x768x1x128, .f32⟩
  | .hbm, ⟨28, _⟩ => ⟨S1x1x768x128, .f32⟩
  | .hbm, ⟨29, _⟩ => ⟨S1x768x768x128, .f32⟩
  | .hbm, ⟨30, _⟩ => ⟨S1x768x768x128, .f32⟩
  | .hbm, ⟨31, _⟩ => ⟨S1x768x768x128, .f32⟩
  | .hbm, ⟨32, _⟩ => ⟨S1x768x768x128, .f32⟩
  | _, _ => ⟨S1x768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x768x128_0_1_2 : S1x1x128.BroadcastsInDim S1x768x128 (![0, 1, 2] : Fin 3 → Fin S1x768x128.rank)
  slices_S128x256_S128x128_0_0 : S128x256.Slices ![0, 0] S128x128
  slices_S128x256_S128x128_0_128 : S128x256.Slices ![0, 128] S128x128
  bcast_S1x768x128_S1x768x1x128_0_1_3 : S1x768x128.BroadcastsInDim S1x768x1x128 (![0, 1, 3] : Fin 3 → Fin S1x768x1x128.rank)
  bcast_S1x768x128_S1x1x768x128_0_2_3 : S1x768x128.BroadcastsInDim S1x1x768x128 (![0, 2, 3] : Fin 3 → Fin S1x1x768x128.rank)
  bcast_S1x768x1x128_S1x768x768x128_0_1_2_3 : S1x768x1x128.BroadcastsInDim S1x768x768x128 (![0, 1, 2, 3] : Fin 4 → Fin S1x768x768x128.rank)
  bcast_S1x1x768x128_S1x768x768x128_0_1_2_3 : S1x1x768x128.BroadcastsInDim S1x768x768x128 (![0, 1, 2, 3] : Fin 4 → Fin S1x768x768x128.rank)
  bcast_S128_S1x1x1x128_3 : S128.BroadcastsInDim S1x1x1x128 (![3] : Fin 1 → Fin S1x1x1x128.rank)
  bcast_S1x1x1x128_S1x768x768x128_0_1_2_3 : S1x1x1x128.BroadcastsInDim S1x768x768x128 (![0, 1, 2, 3] : Fin 4 → Fin S1x768x768x128.rank)
  dot_S1x768x384_S128x384_S1x768x128_2_1_01_0_n_n_wf : DotDims.WF S1x768x384 S128x384 S1x768x128 [2] [1] [0, 1] [0] [] []
  dot_S1x768x128_S128x128_S1x768x128_2_1_01_0_n_n_wf : DotDims.WF S1x768x128 S128x128 S1x768x128 [2] [1] [0, 1] [0] [] []

variable [Facts₀]

def dot_S1x768x384_S128x384_S1x768x128_2_1_01_0_n_n : DotDims S1x768x384 S128x384 S1x768x128 where
  lhsContracting := [2]
  rhsContracting := [1]
  lhsNonContracting := [0, 1]
  rhsNonContracting := [0]
  lhsBatch := []
  rhsBatch := []
  wf := dot_S1x768x384_S128x384_S1x768x128_2_1_01_0_n_n_wf
def dot_S1x768x128_S128x128_S1x768x128_2_1_01_0_n_n : DotDims S1x768x128 S128x128 S1x768x128 where
  lhsContracting := [2]
  rhsContracting := [1]
  lhsNonContracting := [0, 1]
  rhsNonContracting := [0]
  lhsBatch := []
  rhsBatch := []
  wf := dot_S1x768x128_S128x128_S1x768x128_2_1_01_0_n_n_wf

class Facts : Prop extends Facts₀ where

variable [Facts]
-- ==== Proof.Spec.lean ====
/-
  The pair map this certificate is about, as one function of the seven argument arrays.

  From a sequence `s` of 768 rows of 384 numbers, two projections give, for each row `l` and channel `d`,
  `si l d = ∑ p, s l p · wi d p + bi d` and `sj l d = ∑ p, s l p · wj d p + bj d`. A 128 × 256 mixing matrix `wm`
  is read as two 128 × 128 halves: `zi l e = ∑ d, si l d · wm e d` uses its left columns and
  `zj l e = ∑ d, sj l d · wm e (128 + d)` its right ones. The result at a pair of rows `(i, j)` and channel `d` is
  `((zi i d + zj j d) + bm d) + si i d · sj j d`.

  Everything is an extended real; sums and products are the exact ones. Nothing here needs a finite input: the two
  programs compute this very tree of sums and products, in the same order of operands.
-/
import Idealize.ShloMosaic.Lib.ValueIdx
import Idealize.ShloMosaic.PureOps.Ideal

noncomputable section

namespace Cert.PairSpec

open Idealize.ShloMosaic Idealize.ShloMosaic.ValueIdx

/-- One projection entry: row `l` of the sequence against row `d` of the weights, plus the bias at `d`. -/
def proj (s : (⟨3, ![1, 768, 384]⟩ : Shape).Idx → EReal) (w : (⟨2, ![128, 384]⟩ : Shape).Idx → EReal)
    (b : (⟨1, ![128]⟩ : Shape).Idx → EReal) (l : Fin 768) (d : Fin 128) : EReal :=
  (∑ p : Fin 384, s (ix3 (0 : Fin 1) l p) * w (ix2 d p)) + b (ix1 d)

/-- Column `o + d` of the mixing matrix, for a half that starts at column `o`. -/
def col (o : ℕ) (ho : o + 128 ≤ 256) (d : Fin 128) : Fin 256 := ⟨o + d.val, by have := d.isLt; omega⟩

/-- One mixed entry: row `l` of a projection against row `e` of the half of the mixing matrix that starts at column `o`. -/
def mix (x : Fin 768 → Fin 128 → EReal) (wm : (⟨2, ![128, 256]⟩ : Shape).Idx → EReal) (o : ℕ) (ho : o + 128 ≤ 256)
    (l : Fin 768) (e : Fin 128) : EReal :=
  ∑ d : Fin 128, x l d * wm (ix2 e (col o ho d))

/-- The result at rows `(i, j)` and channel `d`. -/
def pair (s : (⟨3, ![1, 768, 384]⟩ : Shape).Idx → EReal) (wi : (⟨2, ![128, 384]⟩ : Shape).Idx → EReal)
    (bi : (⟨1, ![128]⟩ : Shape).Idx → EReal) (wj : (⟨2, ![128, 384]⟩ : Shape).Idx → EReal)
    (bj : (⟨1, ![128]⟩ : Shape).Idx → EReal) (wm : (⟨2, ![128, 256]⟩ : Shape).Idx → EReal)
    (bm : (⟨1, ![128]⟩ : Shape).Idx → EReal) (i j : Fin 768) (d : Fin 128) : EReal :=
  ((mix (proj s wi bi) wm 0 (by omega) i d + mix (proj s wj bj) wm 128 (by omega) j d) + bm (ix1 d))
    + proj s wi bi i d * proj s wj bj j d

/-- The whole result array: a leading axis of one, then the pair of rows, then the channel. -/
def G (s : (⟨3, ![1, 768, 384]⟩ : Shape).Idx → EReal) (wi : (⟨2, ![128, 384]⟩ : Shape).Idx → EReal)
    (bi : (⟨1, ![128]⟩ : Shape).Idx → EReal) (wj : (⟨2, ![128, 384]⟩ : Shape).Idx → EReal)
    (bj : (⟨1, ![128]⟩ : Shape).Idx → EReal) (wm : (⟨2, ![128, 256]⟩ : Shape).Idx → EReal)
    (bm : (⟨1, ![128]⟩ : Shape).Idx → EReal) : (⟨4, ![1, 768, 768, 128]⟩ : Shape).Idx → EReal :=
  fun idx => pair s wi bi wj bj wm bm (idx 1) (idx 2) (idx 3)

theorem G_ix4 (s : (⟨3, ![1, 768, 384]⟩ : Shape).Idx → EReal) (wi : (⟨2, ![128, 384]⟩ : Shape).Idx → EReal)
    (bi : (⟨1, ![128]⟩ : Shape).Idx → EReal) (wj : (⟨2, ![128, 384]⟩ : Shape).Idx → EReal)
    (bj : (⟨1, ![128]⟩ : Shape).Idx → EReal) (wm : (⟨2, ![128, 256]⟩ : Shape).Idx → EReal)
    (bm : (⟨1, ![128]⟩ : Shape).Idx → EReal) (u : Fin 1) (i j : Fin 768) (d : Fin 128) :
    G s wi bi wj bj wm bm (ix4 u i j d) = pair s wi bi wj bj wm bm i j d := rfl

end Cert.PairSpec

end
-- ==== Proof.Region0.lean ====
/-
  The projection kernel's four result arrays after its region, as functions of the arrays the region finds.

  The region has a single grid point and every window's block is its whole array, so each input block is the array
  itself and the one write-back of each result covers the result array: the array ends holding the kernel's payload of
  the entry arrays.
-/
import proofs.«180195_j3143916061385_1_alg».proof.Proof.Gen.KernelIdeal.Frame
import Idealize.ShloMosaic.Lib.ValueIdx
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Every window of the region sits at block index zero on every axis, at the grid's one point. -/
theorem idx_zero : ∀ t : Fin cfg0.N,
    win0_0.index t (0 : Fin 2) = 0
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- Window 0's block is its whole array. -/
theorem blk_0 (c : Dev nD) (t : Fin cfg0.N) : iblk0 V c 0 t = V c main_v0 := by
  funext y
  show V c main_v0 (((cfg0.win 0).blk t).view.emb y) = V c main_v0 y
  refine congrArg (V c main_v0) (funext fun a => Fin.ext ?_)
  have hi := idx_zero t
  match a with
    | ⟨0, _⟩ => show win0_0.index t (0 : Fin 2) * 768 + 1 * (y 0).val = (y 0).val; omega
    | ⟨1, _⟩ => show win0_0.index t (1 : Fin 2) * 384 + 1 * (y 1).val = (y 1).val; omega

/-- Window 1's block is its whole array. -/
theorem blk_1 (c : Dev nD) (t : Fin cfg0.N) : iblk0 V c 1 t = V c main_arg1 := by
  funext y
  show V c main_arg1 (((cfg0.win 1).blk t).view.emb y) = V c main_arg1 y
  refine congrArg (V c main_arg1) (funext fun a => Fin.ext ?_)
  have hi := idx_zero t
  match a with
    | ⟨0, _⟩ => show win0_1.index t (0 : Fin 2) * 128 + 1 * (y 0).val = (y 0).val; omega
    | ⟨1, _⟩ => show win0_1.index t (1 : Fin 2) * 384 + 1 * (y 1).val = (y 1).val; omega

/-- Window 2's block is its whole array. -/
theorem blk_2 (c : Dev nD) (t : Fin cfg0.N) : iblk0 V c 2 t = V c main_arg2 := by
  funext y
  show V c main_arg2 (((cfg0.win 2).blk t).view.emb y) = V c main_arg2 y
  refine congrArg (V c main_arg2) (funext fun a => Fin.ext ?_)
  have hi := idx_zero t
  match a with
    | ⟨0, _⟩ => show win0_2.index t (0 : Fin 1) * 128 + 1 * (y 0).val = (y 0).val; omega

/-- Window 3's block is its whole array. -/
theorem blk_3 (c : Dev nD) (t : Fin cfg0.N) : iblk0 V c 3 t = V c main_arg3 := by
  funext y
  show V c main_arg3 (((cfg0.win 3).blk t).view.emb y) = V c main_arg3 y
  refine congrArg (V c main_arg3) (funext fun a => Fin.ext ?_)
  have hi := idx_zero t
  match a with
    | ⟨0, _⟩ => show win0_3.index t (0 : Fin 2) * 128 + 1 * (y 0).val = (y 0).val; omega
    | ⟨1, _⟩ => show win0_3.index t (1 : Fin 2) * 384 + 1 * (y 1).val = (y 1).val; omega

/-- Window 4's block is its whole array. -/
theorem blk_4 (c : Dev nD) (t : Fin cfg0.N) : iblk0 V c 4 t = V c main_arg4 := by
  funext y
  show V c main_arg4 (((cfg0.win 4).blk t).view.emb y) = V c main_arg4 y
  refine congrArg (V c main_arg4) (funext fun a => Fin.ext ?_)
  have hi := idx_zero t
  match a with
    | ⟨0, _⟩ => show win0_4.index t (0 : Fin 1) * 128 + 1 * (y 0).val = (y 0).val; omega

/-- Window 5's block is its whole array. -/
theorem blk_5 (c : Dev nD) (t : Fin cfg0.N) : iblk0 V c 5 t = V c main_v1 := by
  funext y
  show V c main_v1 (((cfg0.win 5).blk t).view.emb y) = V c main_v1 y
  refine congrArg (V c main_v1) (funext fun a => Fin.ext ?_)
  have hi := idx_zero t
  match a with
    | ⟨0, _⟩ => show win0_5.index t (0 : Fin 2) * 128 + 1 * (y 0).val = (y 0).val; omega
    | ⟨1, _⟩ => show win0_5.index t (1 : Fin 2) * 128 + 1 * (y 1).val = (y 1).val; omega

/-- Window 6's block is its whole array. -/
theorem blk_6 (c : Dev nD) (t : Fin cfg0.N) : iblk0 V c 6 t = V c main_v2 := by
  funext y
  show V c main_v2 (((cfg0.win 6).blk t).view.emb y) = V c main_v2 y
  refine congrArg (V c main_v2) (funext fun a => Fin.ext ?_)
  have hi := idx_zero t
  match a with
    | ⟨0, _⟩ => show win0_6.index t (0 : Fin 2) * 128 + 1 * (y 0).val = (y 0).val; omega
    | ⟨1, _⟩ => show win0_6.index t (1 : Fin 2) * 128 + 1 * (y 1).val = (y 1).val; omega

/-- An index of result 7's array is in the one point's block. -/
theorem mem_7 (t : Fin cfg0.N) (i : S768x128.Idx) : i ∈ ((cfg0.win 7).blk t).view.set := by
  show i ∈ ((View.whole main_v3_0).slice (win0_7.rect t)).set
  rw [View.set_slice_whole, Rect.mem_set_unit]
  have hi := idx_zero t
  intro a
  match a with
  | ⟨0, _⟩ => show win0_7.index t (0 : Fin 2) * 768 ≤ (i 0).val ∧ (i 0).val < win0_7.index t (0 : Fin 2) * 768 + 768; have h768 : (i 0).val < 768 := (i 0).isLt; omega
  | ⟨1, _⟩ => show win0_7.index t (1 : Fin 2) * 128 ≤ (i 1).val ∧ (i 1).val < win0_7.index t (1 : Fin 2) * 128 + 128; have h128 : (i 1).val < 128 := (i 1).isLt; omega

/-- What the one point writes back for result 7 is the block of the kernel's payload of the entry arrays. -/
theorem flushed_7 (c : Dev nD) (t : Fin cfg0.N) :
    (dat0 V c).flushed 7 t = ((cfg0.win 7).blk t).view.read (Elt Ideal) (k0_pay2 (F := Ideal) (V c main_v0) (V c main_arg1) (V c main_arg2)) := by
  show (cfg0.win 7).cut (grid0.coords t) ((dat0 V c).after 7 t) = _
  rw [after0_7]
  unfold out0_7
  rw [View.canon_unit_zero hz2]
  simp only [View.ld_unit_zero (S := S768x384) hz2, View.ld_unit_zero (S := S128x384) hz2, View.ld_unit_zero (S := S128) hz1]
  rw [blk_0 V c t, blk_1 V c t, blk_2 V c t]
  funext y
  show k0_pay2 (F := Ideal) (V c main_v0) (V c main_arg1) (V c main_arg2) y = k0_pay2 (F := Ideal) (V c main_v0) (V c main_arg1) (V c main_arg2) (((cfg0.win 7).blk t).view.emb y)
  refine congrArg (k0_pay2 (F := Ideal) (V c main_v0) (V c main_arg1) (V c main_arg2)) (funext fun a => Fin.ext ?_)
  have hi := idx_zero t
  match a with
  | ⟨0, _⟩ => show (y 0).val = win0_7.index t (0 : Fin 2) * 768 + 1 * (y 0).val; omega
  | ⟨1, _⟩ => show (y 1).val = win0_7.index t (1 : Fin 2) * 128 + 1 * (y 1).val; omega

/-- Result 7's array after the region. -/
theorem arr_7 (c : Dev nD) : (dat0 V c).arrAt 7 cfg0.N = k0_pay2 (F := Ideal) (V c main_v0) (V c main_arg1) (V c main_arg2) :=
  (dat0 V c).arrAt_eq_of_cover 7 _ (fun t _ => flushed_7 V c t) (fun i => ⟨t0_0, flush0_7 t0_0, mem_7 t0_0 i⟩)

/-- An index of result 8's array is in the one point's block. -/
theorem mem_8 (t : Fin cfg0.N) (i : S768x128.Idx) : i ∈ ((cfg0.win 8).blk t).view.set := by
  show i ∈ ((View.whole main_v3_1).slice (win0_8.rect t)).set
  rw [View.set_slice_whole, Rect.mem_set_unit]
  have hi := idx_zero t
  intro a
  match a with
  | ⟨0, _⟩ => show win0_8.index t (0 : Fin 2) * 768 ≤ (i 0).val ∧ (i 0).val < win0_8.index t (0 : Fin 2) * 768 + 768; have h768 : (i 0).val < 768 := (i 0).isLt; omega
  | ⟨1, _⟩ => show win0_8.index t (1 : Fin 2) * 128 ≤ (i 1).val ∧ (i 1).val < win0_8.index t (1 : Fin 2) * 128 + 128; have h128 : (i 1).val < 128 := (i 1).isLt; omega

/-- What the one point writes back for result 8 is the block of the kernel's payload of the entry arrays. -/
theorem flushed_8 (c : Dev nD) (t : Fin cfg0.N) :
    (dat0 V c).flushed 8 t = ((cfg0.win 8).blk t).view.read (Elt Ideal) (k0_pay3 (F := Ideal) (V c main_v0) (V c main_arg3) (V c main_arg4)) := by
  show (cfg0.win 8).cut (grid0.coords t) ((dat0 V c).after 8 t) = _
  rw [after0_8]
  unfold out0_8
  rw [View.canon_unit_zero hz2]
  simp only [View.ld_unit_zero (S := S768x384) hz2, View.ld_unit_zero (S := S128x384) hz2, View.ld_unit_zero (S := S128) hz1]
  rw [blk_0 V c t, blk_3 V c t, blk_4 V c t]
  funext y
  show k0_pay3 (F := Ideal) (V c main_v0) (V c main_arg3) (V c main_arg4) y = k0_pay3 (F := Ideal) (V c main_v0) (V c main_arg3) (V c main_arg4) (((cfg0.win 8).blk t).view.emb y)
  refine congrArg (k0_pay3 (F := Ideal) (V c main_v0) (V c main_arg3) (V c main_arg4)) (funext fun a => Fin.ext ?_)
  have hi := idx_zero t
  match a with
  | ⟨0, _⟩ => show (y 0).val = win0_8.index t (0 : Fin 2) * 768 + 1 * (y 0).val; omega
  | ⟨1, _⟩ => show (y 1).val = win0_8.index t (1 : Fin 2) * 128 + 1 * (y 1).val; omega

/-- Result 8's array after the region. -/
theorem arr_8 (c : Dev nD) : (dat0 V c).arrAt 8 cfg0.N = k0_pay3 (F := Ideal) (V c main_v0) (V c main_arg3) (V c main_arg4) :=
  (dat0 V c).arrAt_eq_of_cover 8 _ (fun t _ => flushed_8 V c t) (fun i => ⟨t0_0, flush0_8 t0_0, mem_8 t0_0 i⟩)

/-- An index of result 9's array is in the one point's block. -/
theorem mem_9 (t : Fin cfg0.N) (i : S768x128.Idx) : i ∈ ((cfg0.win 9).blk t).view.set := by
  show i ∈ ((View.whole main_v3_2).slice (win0_9.rect t)).set
  rw [View.set_slice_whole, Rect.mem_set_unit]
  have hi := idx_zero t
  intro a
  match a with
  | ⟨0, _⟩ => show win0_9.index t (0 : Fin 2) * 768 ≤ (i 0).val ∧ (i 0).val < win0_9.index t (0 : Fin 2) * 768 + 768; have h768 : (i 0).val < 768 := (i 0).isLt; omega
  | ⟨1, _⟩ => show win0_9.index t (1 : Fin 2) * 128 ≤ (i 1).val ∧ (i 1).val < win0_9.index t (1 : Fin 2) * 128 + 128; have h128 : (i 1).val < 128 := (i 1).isLt; omega

/-- What the one point writes back for result 9 is the block of the kernel's payload of the entry arrays. -/
theorem flushed_9 (c : Dev nD) (t : Fin cfg0.N) :
    (dat0 V c).flushed 9 t = ((cfg0.win 9).blk t).view.read (Elt Ideal) (k0_pay4 (F := Ideal) (V c main_v0) (V c main_arg1) (V c main_arg2) (V c main_v1)) := by
  show (cfg0.win 9).cut (grid0.coords t) ((dat0 V c).after 9 t) = _
  rw [after0_9]
  unfold out0_9
  rw [View.canon_unit_zero hz2]
  simp only [View.ld_unit_zero (S := S768x384) hz2, View.ld_unit_zero (S := S128x384) hz2, View.ld_unit_zero (S := S128) hz1, View.ld_unit_zero (S := S128x128) hz2]
  rw [blk_0 V c t, blk_1 V c t, blk_2 V c t, blk_5 V c t]
  funext y
  show k0_pay4 (F := Ideal) (V c main_v0) (V c main_arg1) (V c main_arg2) (V c main_v1) y = k0_pay4 (F := Ideal) (V c main_v0) (V c main_arg1) (V c main_arg2) (V c main_v1) (((cfg0.win 9).blk t).view.emb y)
  refine congrArg (k0_pay4 (F := Ideal) (V c main_v0) (V c main_arg1) (V c main_arg2) (V c main_v1)) (funext fun a => Fin.ext ?_)
  have hi := idx_zero t
  match a with
  | ⟨0, _⟩ => show (y 0).val = win0_9.index t (0 : Fin 2) * 768 + 1 * (y 0).val; omega
  | ⟨1, _⟩ => show (y 1).val = win0_9.index t (1 : Fin 2) * 128 + 1 * (y 1).val; omega

/-- Result 9's array after the region. -/
theorem arr_9 (c : Dev nD) : (dat0 V c).arrAt 9 cfg0.N = k0_pay4 (F := Ideal) (V c main_v0) (V c main_arg1) (V c main_arg2) (V c main_v1) :=
  (dat0 V c).arrAt_eq_of_cover 9 _ (fun t _ => flushed_9 V c t) (fun i => ⟨t0_0, flush0_9 t0_0, mem_9 t0_0 i⟩)

/-- An index of result 10's array is in the one point's block. -/
theorem mem_10 (t : Fin cfg0.N) (i : S768x128.Idx) : i ∈ ((cfg0.win 10).blk t).view.set := by
  show i ∈ ((View.whole main_v3_3).slice (win0_10.rect t)).set
  rw [View.set_slice_whole, Rect.mem_set_unit]
  have hi := idx_zero t
  intro a
  match a with
  | ⟨0, _⟩ => show win0_10.index t (0 : Fin 2) * 768 ≤ (i 0).val ∧ (i 0).val < win0_10.index t (0 : Fin 2) * 768 + 768; have h768 : (i 0).val < 768 := (i 0).isLt; omega
  | ⟨1, _⟩ => show win0_10.index t (1 : Fin 2) * 128 ≤ (i 1).val ∧ (i 1).val < win0_10.index t (1 : Fin 2) * 128 + 128; have h128 : (i 1).val < 128 := (i 1).isLt; omega

/-- What the one point writes back for result 10 is the block of the kernel's payload of the entry arrays. -/
theorem flushed_10 (c : Dev nD) (t : Fin cfg0.N) :
    (dat0 V c).flushed 10 t = ((cfg0.win 10).blk t).view.read (Elt Ideal) (k0_pay5 (F := Ideal) (V c main_v0) (V c main_arg3) (V c main_arg4) (V c main_v2)) := by
  show (cfg0.win 10).cut (grid0.coords t) ((dat0 V c).after 10 t) = _
  rw [after0_10]
  unfold out0_10
  rw [View.canon_unit_zero hz2]
  simp only [View.ld_unit_zero (S := S768x384) hz2, View.ld_unit_zero (S := S128x384) hz2, View.ld_unit_zero (S := S128) hz1, View.ld_unit_zero (S := S128x128) hz2]
  rw [blk_0 V c t, blk_3 V c t, blk_4 V c t, blk_6 V c t]
  funext y
  show k0_pay5 (F := Ideal) (V c main_v0) (V c main_arg3) (V c main_arg4) (V c main_v2) y = k0_pay5 (F := Ideal) (V c main_v0) (V c main_arg3) (V c main_arg4) (V c main_v2) (((cfg0.win 10).blk t).view.emb y)
  refine congrArg (k0_pay5 (F := Ideal) (V c main_v0) (V c main_arg3) (V c main_arg4) (V c main_v2)) (funext fun a => Fin.ext ?_)
  have hi := idx_zero t
  match a with
  | ⟨0, _⟩ => show (y 0).val = win0_10.index t (0 : Fin 2) * 768 + 1 * (y 0).val; omega
  | ⟨1, _⟩ => show (y 1).val = win0_10.index t (1 : Fin 2) * 128 + 1 * (y 1).val; omega

/-- Result 10's array after the region. -/
theorem arr_10 (c : Dev nD) : (dat0 V c).arrAt 10 cfg0.N = k0_pay5 (F := Ideal) (V c main_v0) (V c main_arg3) (V c main_arg4) (V c main_v2) :=
  (dat0 V c).arrAt_eq_of_cover 10 _ (fun t _ => flushed_10 V c t) (fun i => ⟨t0_0, flush0_10 t0_0, mem_10 t0_0 i⟩)

end Cert.KernelIdeal.Region0

end
-- ==== Proof.KComb.lean ====
/-
  The combine kernel's block, entry by entry, on the extended reals.

  The kernel holds a block of 64 rows of each "row" operand (a projection and its mixed form), a block of 128 rows of each
  "column" operand, and the bias row. It lays the row operands along a new middle axis, the column operands along a new
  leading axis, the bias along both, and computes, at (a, b, d),
  `((zi a d + zj b d) + bm d) + si a d · sj b d`.
-/
import proofs.«180195_j3143916061385_1_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.CombValue

open Idealize.ShloMosaic Idealize.ShloMosaic.ValueIdx Cert.KernelIdeal Cert.KernelIdeal.Gen

section Layout

variable {α : Type}

/-- An `[a, c]` array given a unit middle axis reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a]` array given two leading unit axes reads, at `(u, v, k)`, the operand at `k`. -/
theorem shapeCast_a_11a_apply {a : ℕ} (x : (⟨1, ![a]⟩ : Shape).Idx → α)
    (h : (⟨1, ![a]⟩ : Shape).ShapeCasts ⟨3, ![1, 1, a]⟩) (u v : Fin 1) (k : Fin a) :
    shapeCast ⟨3, ![1, 1, a]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * a + k.val
    rw [hu, hv]
    simp)

/-- A unit middle axis broadcast to `b` reads, at `(i, j, k)`, the operand at `(i, 0, k)` (for `a`, `c` more than one). -/
theorem broadcastTo_a1c_abc_apply {a b c : ℕ} (ha : a ≠ 1) (hc : c ≠ 1) (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ => show i.val = if a = 1 then 0 else i.val; rw [if_neg ha]
  | ⟨1, _⟩ => rfl
  | ⟨2, _⟩ => show k.val = if c = 1 then 0 else k.val; rw [if_neg hc]

/-- A unit leading axis broadcast to `a` reads, at `(i, j, k)`, the operand at `(0, j, k)` (for `b`, `c` more than one). -/
theorem broadcastTo_1bc_abc_apply {a b c : ℕ} (hb : b ≠ 1) (hc : c ≠ 1) (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ => show j.val = if b = 1 then 0 else j.val; rw [if_neg hb]
  | ⟨2, _⟩ => show k.val = if c = 1 then 0 else k.val; rw [if_neg hc]

/-- Two unit leading axes broadcast reads, at `(i, j, k)`, the operand at `(0, 0, k)` (for `c` more than one). -/
theorem broadcastTo_11c_abc_apply {a b c : ℕ} (hc : c ≠ 1) (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ => show k.val = if c = 1 then 0 else k.val; rw [if_neg hc]

end Layout

/-- The block the kernel stores, at row `a` of the row operands, row `b` of the column operands and channel `d`. -/
theorem comb_apply (si zi : Vec Ideal S64x128 .f32) (sj zj : Vec Ideal S128x128 .f32) (bm : Vec Ideal S128 .f32)
    (a : Fin 64) (b : Fin 128) (d : Fin 128) :
    k1_pay1 (F := Ideal) si zi sj zj bm (ix3 a b d)
      = ((zi (ix2 a d) + zj (ix2 b d)) + bm (ix1 d)) + si (ix2 a d) * sj (ix2 b d) := by
  unfold k1_pay1
  show ((broadcastTo S64x128x128 (shapeCast S64x1x128 (shapeCast S64x128 zi shapeCasts_S64x128_S64x128) shapeCasts_S64x128_S64x1x128)
            broadcasts_S64x1x128_S64x128x128 (ix3 a b d)
          + broadcastTo S64x128x128 (shapeCast S1x128x128 (shapeCast S128x128 zj shapeCasts_S128x128_S128x128) shapeCasts_S128x128_S1x128x128)
            broadcasts_S1x128x128_S64x128x128 (ix3 a b d))
        + broadcastTo S64x128x128 (shapeCast S1x1x128 bm shapeCasts_S128_S1x1x128) broadcasts_S1x1x128_S64x128x128 (ix3 a b d))
      + broadcastTo S64x128x128 (shapeCast S64x1x128 (shapeCast S64x128 si shapeCasts_S64x128_S64x128) shapeCasts_S64x128_S64x1x128)
            broadcasts_S64x1x128_S64x128x128 (ix3 a b d)
        * broadcastTo S64x128x128 (shapeCast S1x128x128 (shapeCast S128x128 sj shapeCasts_S128x128_S128x128) shapeCasts_S128x128_S1x128x128)
            broadcasts_S1x128x128_S64x128x128 (ix3 a b d) = _
  rw [broadcastTo_a1c_abc_apply (by decide) (by decide), broadcastTo_a1c_abc_apply (by decide) (by decide),
    broadcastTo_1bc_abc_apply (by decide) (by decide), broadcastTo_1bc_abc_apply (by decide) (by decide),
    broadcastTo_11c_abc_apply (by decide), shapeCast_ac_a1c_apply, shapeCast_ac_a1c_apply, shapeCast_ab_1ab_apply,
    shapeCast_ab_1ab_apply, shapeCast_a_11a_apply, shapeCast_self, shapeCast_self, shapeCast_self, shapeCast_self]

end Cert.KernelIdeal.CombValue

end
-- ==== Proof.Region1.lean ====
/-
  The combine kernel's result array after its region, as a function of the arrays the region finds.

  The grid is 12 × 6. At point (p, q) the kernel reads rows 64p … 64p + 63 of the two "row" operands, rows
  128q … 128q + 127 of the two "column" operands and the whole bias, and writes the 64 × 128 × 128 block at (p, q, 0) of
  the result. Entry (a, b, d) of that block is `((zi I d + zj J d) + bm d) + si I d · sj J d` with `I = 64p + a`,
  `J = 128q + b`: the block of ONE function of the whole arrays. The blocks tile the result, so the result array ends
  holding that function.
-/
import proofs.«180195_j3143916061385_1_alg».proof.Proof.Gen.KernelIdeal.Frame
import proofs.«180195_j3143916061385_1_alg».proof.Proof.KComb
import Idealize.ShloMosaic.Lib.ValueIdx
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The result at rows `(i, j)` and channel `d`, from the four operand arrays and the bias. -/
def combAt (si zi sj zj : S768x128.Idx → EReal) (bm : S128.Idx → EReal) (i j : Fin 768) (d : Fin 128) : EReal :=
  ((zi (ix2 i d) + zj (ix2 j d)) + bm (ix1 d)) + si (ix2 i d) * sj (ix2 j d)

/-- The whole result array. -/
def comb (si zi sj zj : S768x128.Idx → EReal) (bm : S128.Idx → EReal) : S768x768x128.Idx → EReal :=
  fun idx => combAt si zi sj zj bm (idx 0) (idx 1) (idx 2)

theorem comb_ix3 (si zi sj zj : S768x128.Idx → EReal) (bm : S128.Idx → EReal) (i j : Fin 768) (d : Fin 128) :
    comb si zi sj zj bm (ix3 i j d) = combAt si zi sj zj bm i j d := rfl

variable (V : (c : Dev nD) → (b : Ref sig .tc) → Buf (Elt Ideal) ((c : Thread nD τ).loc b))

/-- The five operand arrays as the region finds them, at their literal types. -/
abbrev aSi (c : Dev nD) : S768x128.Idx → EReal := V c main_v3_0
abbrev aZi (c : Dev nD) : S768x128.Idx → EReal := V c main_v3_2
abbrev aSj (c : Dev nD) : S768x128.Idx → EReal := V c main_v3_1
abbrev aZj (c : Dev nD) : S768x128.Idx → EReal := V c main_v3_3
abbrev aBm (c : Dev nD) : S128.Idx → EReal := V c main_arg6

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the row operands move with the result's first block index, the
    column operands with its second, everything else stays at zero, and the result's block indices stay in range. -/
theorem idx_facts : ∀ t : Fin cfg1.N,
    win1_0.index t (0 : Fin 2) = win1_5.index t (0 : Fin 3) ∧ win1_0.index t (1 : Fin 2) = 0
    ∧ win1_1.index t (0 : Fin 2) = win1_5.index t (0 : Fin 3) ∧ win1_1.index t (1 : Fin 2) = 0
    ∧ win1_2.index t (0 : Fin 2) = win1_5.index t (1 : Fin 3) ∧ win1_2.index t (1 : Fin 2) = 0
    ∧ win1_3.index t (0 : Fin 2) = win1_5.index t (1 : Fin 3) ∧ win1_3.index t (1 : Fin 2) = 0
    ∧ win1_4.index t (0 : Fin 1) = 0
    ∧ win1_5.index t (2 : Fin 3) = 0 ∧ win1_5.index t (0 : Fin 3) ≤ 11 ∧ win1_5.index t (1 : Fin 3) ≤ 5 :=
  (by decide +kernel : ∀ t : Fin grid1.N, _)

/-- Every block position of the result is some point's. -/
theorem idx_onto : ∀ (q0 : Fin 12) (q1 : Fin 6), ∃ t : Fin cfg1.N, win1_5.index t = ![q0.val, q1.val, 0] :=
  (by decide +kernel : ∀ (q0 : Fin 12) (q1 : Fin 6), ∃ t : Fin grid1.N, win1_5.index t = ![q0.val, q1.val, 0])

/-- The first row operand's block at a point, read at (a, d): the array at row `64p + a`. -/
theorem rd_0 (c : Dev nD) (t : Fin cfg1.N) (a : Fin 64) (d : Fin 128) (I : Fin 768)
    (hI : I.val = win1_5.index t (0 : Fin 3) * 64 + a.val) : iblk1 V c 0 t (ix2 a d) = aSi V c (ix2 I d) := by
  show V c main_v3_0 (((cfg1.win 0).blk t).view.emb (ix2 a d)) = V c main_v3_0 (ix2 I d)
  refine congrArg (V c main_v3_0) (funext fun ax => Fin.ext ?_)
  have hi := idx_facts t
  match ax with
  | ⟨0, _⟩ => show win1_0.index t (0 : Fin 2) * 64 + 1 * a.val = I.val; omega
  | ⟨1, _⟩ => show win1_0.index t (1 : Fin 2) * 128 + 1 * d.val = d.val; omega

/-- The second row operand's block, the same way. -/
theorem rd_1 (c : Dev nD) (t : Fin cfg1.N) (a : Fin 64) (d : Fin 128) (I : Fin 768)
    (hI : I.val = win1_5.index t (0 : Fin 3) * 64 + a.val) : iblk1 V c 1 t (ix2 a d) = aZi V c (ix2 I d) := by
  show V c main_v3_2 (((cfg1.win 1).blk t).view.emb (ix2 a d)) = V c main_v3_2 (ix2 I d)
  refine congrArg (V c main_v3_2) (funext fun ax => Fin.ext ?_)
  have hi := idx_facts t
  match ax with
  | ⟨0, _⟩ => show win1_1.index t (0 : Fin 2) * 64 + 1 * a.val = I.val; omega
  | ⟨1, _⟩ => show win1_1.index t (1 : Fin 2) * 128 + 1 * d.val = d.val; omega

/-- The first column operand's block at a point, read at (b, d): the array at row `128q + b`. -/
theorem rd_2 (c : Dev nD) (t : Fin cfg1.N) (b : Fin 128) (d : Fin 128) (J : Fin 768)
    (hJ : J.val = win1_5.index t (1 : Fin 3) * 128 + b.val) : iblk1 V c 2 t (ix2 b d) = aSj V c (ix2 J d) := by
  show V c main_v3_1 (((cfg1.win 2).blk t).view.emb (ix2 b d)) = V c main_v3_1 (ix2 J d)
  refine congrArg (V c main_v3_1) (funext fun ax => Fin.ext ?_)
  have hi := idx_facts t
  match ax with
  | ⟨0, _⟩ => show win1_2.index t (0 : Fin 2) * 128 + 1 * b.val = J.val; omega
  | ⟨1, _⟩ => show win1_2.index t (1 : Fin 2) * 128 + 1 * d.val = d.val; omega

/-- The second column operand's block, the same way. -/
theorem rd_3 (c : Dev nD) (t : Fin cfg1.N) (b : Fin 128) (d : Fin 128) (J : Fin 768)
    (hJ : J.val = win1_5.index t (1 : Fin 3) * 128 + b.val) : iblk1 V c 3 t (ix2 b d) = aZj V c (ix2 J d) := by
  show V c main_v3_3 (((cfg1.win 3).blk t).view.emb (ix2 b d)) = V c main_v3_3 (ix2 J d)
  refine congrArg (V c main_v3_3) (funext fun ax => Fin.ext ?_)
  have hi := idx_facts t
  match ax with
  | ⟨0, _⟩ => show win1_3.index t (0 : Fin 2) * 128 + 1 * b.val = J.val; omega
  | ⟨1, _⟩ => show win1_3.index t (1 : Fin 2) * 128 + 1 * d.val = d.val; omega

/-- The bias block is the whole bias. -/
theorem rd_4 (c : Dev nD) (t : Fin cfg1.N) (d : Fin 128) : iblk1 V c 4 t (ix1 d) = aBm V c (ix1 d) := by
  show V c main_arg6 (((cfg1.win 4).blk t).view.emb (ix1 d)) = V c main_arg6 (ix1 d)
  refine congrArg (V c main_arg6) (funext fun ax => Fin.ext ?_)
  have hi := idx_facts t
  match ax with
  | ⟨0, _⟩ => show win1_4.index t (0 : Fin 1) * 128 + 1 * d.val = d.val; omega

/-- An entry of the result's block at a point sits in the array at rows `(64p + a, 128q + b)`, channel `d`. -/
theorem emb_5 (t : Fin cfg1.N) (a : Fin 64) (b d : Fin 128) (I J : Fin 768)
    (hI : I.val = win1_5.index t (0 : Fin 3) * 64 + a.val) (hJ : J.val = win1_5.index t (1 : Fin 3) * 128 + b.val) :
    ((cfg1.win 5).blk t).view.emb (ix3 a b d) = ix3 I J d := by
  refine funext fun ax => Fin.ext ?_
  have hi := idx_facts t
  match ax with
  | ⟨0, _⟩ => show win1_5.index t (0 : Fin 3) * 64 + 1 * a.val = I.val; omega
  | ⟨1, _⟩ => show win1_5.index t (1 : Fin 3) * 128 + 1 * b.val = J.val; omega
  | ⟨2, _⟩ => show win1_5.index t (2 : Fin 3) * 128 + 1 * d.val = d.val; omega

/-- What a point writes back is its block of the one whole-array function. -/
theorem flushed_5 (c : Dev nD) (t : Fin cfg1.N) :
    (dat1 V c).flushed 5 t
      = ((cfg1.win 5).blk t).view.read (Elt Ideal) (comb (aSi V c) (aZi V c) (aSj V c) (aZj V c) (aBm V c)) := by
  show (cfg1.win 5).cut (grid1.coords t) ((dat1 V c).after 5 t) = _
  rw [after1_5]
  unfold out1_5
  rw [View.canon_unit_zero hz3]
  simp only [View.ld_unit_zero (S := S64x128) hz2, View.ld_unit_zero (S := S128x128) hz2, View.ld_unit_zero (S := S128) hz1]
  refine funext fun (y : S64x128x128.Idx) => ?_
  obtain ⟨a, b, d, rfl⟩ : ∃ (a : Fin 64) (b d : Fin 128), y = ix3 a b d := ⟨y 0, y 1, y 2, eq_ix3 y⟩
  have hi := idx_facts t
  have ha := a.isLt
  have hb := b.isLt
  let I : Fin 768 := ⟨win1_5.index t (0 : Fin 3) * 64 + a.val, by omega⟩
  let J : Fin 768 := ⟨win1_5.index t (1 : Fin 3) * 128 + b.val, by omega⟩
  refine (CombValue.comb_apply (iblk1 V c 0 t) (iblk1 V c 1 t) (iblk1 V c 2 t) (iblk1 V c 3 t) (iblk1 V c 4 t) a b d).trans ?_
  rw [rd_0 V c t a d I rfl, rd_1 V c t a d I rfl, rd_2 V c t b d J rfl, rd_3 V c t b d J rfl, rd_4 V c t d]
  show _ = comb (aSi V c) (aZi V c) (aSj V c) (aZj V c) (aBm V c) (((cfg1.win 5).blk t).view.emb (ix3 a b d))
  rw [emb_5 t a b d I J rfl rfl, comb_ix3]
  rfl

/-- An index of the array is in a point's block iff each coordinate is in the block's range on its axis. -/
theorem mem_blk (t : Fin cfg1.N) (i : S768x768x128.Idx) :
    i ∈ ((cfg1.win 5).blk t).view.set ↔ ∀ a : Fin 3, win1_5.index t a * S64x128x128.size a ≤ (i a).val
      ∧ (i a).val < win1_5.index t a * S64x128x128.size a + S64x128x128.size a := by
  show i ∈ ((View.whole main_v4).slice (win1_5.rect t)).set ↔ _
  rw [View.set_slice_whole, Rect.mem_set_unit]
  exact Iff.rfl

/-- Every index of the result is in some point's block: the point at block position (i / 64, j / 128). -/
theorem cover (i : S768x768x128.Idx) :
    ∃ t : Fin cfg1.N, (cfg1.win 5).flush t = true ∧ i ∈ ((cfg1.win 5).blk t).view.set := by
  have h0 : (i 0).val < 768 := (i 0).isLt
  have h1 : (i 1).val < 768 := (i 1).isLt
  have h2 : (i 2).val < 128 := (i 2).isLt
  obtain ⟨t, ht⟩ := idx_onto ⟨(i 0).val / 64, by omega⟩ ⟨(i 1).val / 128, by omega⟩
  have q0 : win1_5.index t (0 : Fin 3) = (i 0).val / 64 := congrFun ht 0
  have q1 : win1_5.index t (1 : Fin 3) = (i 1).val / 128 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 64 ≤ (i 0).val ∧ (i 0).val < win1_5.index t (0 : Fin 3) * 64 + 64; omega
  | ⟨1, _⟩ => show win1_5.index t (1 : Fin 3) * 128 ≤ (i 1).val ∧ (i 1).val < win1_5.index t (1 : Fin 3) * 128 + 128; omega
  | ⟨2, _⟩ => show win1_5.index t (2 : Fin 3) * 128 ≤ (i 2).val ∧ (i 2).val < win1_5.index t (2 : Fin 3) * 128 + 128; omega

/-- The result array after the region. -/
theorem arr_5 (c : Dev nD) :
    (dat1 V c).arrAt 5 cfg1.N = comb (aSi V c) (aZi V c) (aSj V c) (aZj V c) (aBm V c) :=
  (dat1 V c).arrAt_eq_of_cover 5 _ (fun t _ => flushed_5 V c t) (cover)

end Cert.KernelIdeal.Region1

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.KProj.lean ====
/-
  The projection kernel's four results, entry by entry, on the extended reals.

  The kernel loads the sequence `x` (768 × 384), two weight matrices and their biases, and the two halves of the mixing
  matrix. A change of float format is the identity here, a transposed matrix read at (k, d) is the matrix at (d, k), and a
  product accumulated into zeros is the plain sum over the contracted axis. So the first two results are
  `∑ p, x l p · w d p + b d`, and the last two are `∑ d, (that) l d · h e d` for a half `h` of the mixing matrix.
-/
import proofs.«180195_j3143916061385_1_alg».proof.Proof.Gen.KernelIdeal.Skeleton
import proofs.«180195_j3143916061385_1_alg».proof.Proof.LibDense
import Idealize.ShloMosaic.Lib.ValueIdx
import Idealize.ShloMosaic.Lib.ValueLayout
import Idealize.ShloMosaic.Lib.Pipeline.Value

noncomputable section

namespace Cert.KernelIdeal.ProjValue

open Idealize.ShloMosaic Idealize.ShloMosaic.ValueIdx Cert.KernelIdeal Cert.KernelIdeal.Gen

/-- The kernel's 768 × 384 by 384 × 128 product is the rows-by-columns one. -/
theorem dotA_plain : dot_S768x384_S384x128_S768x128_1_0_0_1_n_n = DotDims.plain 768 384 128 := rfl

/-- So is its 768 × 128 by 128 × 128 product. -/
theorem dotB_plain : dot_S768x128_S128x128_S768x128_1_0_0_1_n_n = DotDims.plain 768 128 128 := rfl

/-- The sequence after its cast to the narrower format: unchanged. -/
theorem seq_apply (x : Vec Ideal S768x384 .f32) (l : Fin 768) (p : Fin 384) :
    k0_pay1 (F := Ideal) x (ix2 l p) = x (ix2 l p) := by
  unfold k0_pay1
  show shapeCast S768x384 x shapeCasts_S768x384_S768x384 (ix2 l p) = _
  rw [shapeCast_self]

/-- A projection: the sequence's row `l` against the weights' row `d`, plus the bias at `d`. -/
theorem projI_apply (x : Vec Ideal S768x384 .f32) (w : Vec Ideal S128x384 .f32) (b : Vec Ideal S128 .f32)
    (l : Fin 768) (d : Fin 128) :
    k0_pay2 (F := Ideal) x w b (ix2 l d) = (∑ p : Fin 384, x (ix2 l p) * w (ix2 d p)) + b (ix1 d) := by
  unfold k0_pay2
  show FloatOps.matmul dot_S768x384_S384x128_S768x128_1_0_0_1_n_n none (k0_pay1 (F := Ideal) x)
      (transpose S384x128 [1, 0] (truncf .bf16 w bitsLt_bf16_f32) transposes_S128x384_p1_0_S384x128)
      (constant S768x128 .f32 0x00000000#32) (ix2 l d)
    + broadcastTo S768x128 (shapeCast S1x128 b shapeCasts_S128_S1x128) broadcasts_S1x128_S768x128 (ix2 l d) = _
  rw [dotA_plain, Cert.LibDense.matmul_plain_zero_apply, broadcastTo_1b_ab_apply, shapeCast_a_1a_apply]
  refine congrArg (· + b (ix1 d)) (Finset.sum_congr rfl fun p _ => ?_)
  rw [seq_apply, transpose_ix2_apply]
  rfl

/-- The other projection: the same with the second weights and bias. -/
theorem projJ_apply (x : Vec Ideal S768x384 .f32) (w : Vec Ideal S128x384 .f32) (b : Vec Ideal S128 .f32)
    (l : Fin 768) (d : Fin 128) :
    k0_pay3 (F := Ideal) x w b (ix2 l d) = (∑ p : Fin 384, x (ix2 l p) * w (ix2 d p)) + b (ix1 d) := by
  unfold k0_pay3
  show FloatOps.matmul dot_S768x384_S384x128_S768x128_1_0_0_1_n_n none (k0_pay1 (F := Ideal) x)
      (transpose S384x128 [1, 0] (truncf .bf16 w bitsLt_bf16_f32) transposes_S128x384_p1_0_S384x128)
      (constant S768x128 .f32 0x00000000#32) (ix2 l d)
    + broadcastTo S768x128 (shapeCast S1x128 b shapeCasts_S128_S1x128) broadcasts_S1x128_S768x128 (ix2 l d) = _
  rw [dotA_plain, Cert.LibDense.matmul_plain_zero_apply, broadcastTo_1b_ab_apply, shapeCast_a_1a_apply]
  refine congrArg (· + b (ix1 d)) (Finset.sum_congr rfl fun p _ => ?_)
  rw [seq_apply, transpose_ix2_apply]
  rfl

/-- A mixed projection: row `l` of the first projection against row `e` of a half of the mixing matrix. -/
theorem mixI_apply (x : Vec Ideal S768x384 .f32) (w : Vec Ideal S128x384 .f32) (b : Vec Ideal S128 .f32)
    (h : Vec Ideal S128x128 .f32) (l : Fin 768) (e : Fin 128) :
    k0_pay4 (F := Ideal) x w b h (ix2 l e) = ∑ d : Fin 128, k0_pay2 (F := Ideal) x w b (ix2 l d) * h (ix2 e d) := by
  unfold k0_pay4
  show FloatOps.matmul dot_S768x128_S128x128_S768x128_1_0_0_1_n_n none
      (truncf .bf16 (k0_pay2 (F := Ideal) x w b) bitsLt_bf16_f32)
      (transpose S128x128 [1, 0] (truncf .bf16 (shapeCast S128x128 h shapeCasts_S128x128_S128x128) bitsLt_bf16_f32)
        transposes_S128x128_p1_0_S128x128)
      (constant S768x128 .f32 0x00000000#32) (ix2 l e) = _
  rw [dotB_plain, Cert.LibDense.matmul_plain_zero_apply]
  refine Finset.sum_congr rfl fun d _ => ?_
  rw [transpose_ix2_apply]
  show k0_pay2 (F := Ideal) x w b (ix2 l d) * shapeCast S128x128 h shapeCasts_S128x128_S128x128 (ix2 e d) = _
  rw [shapeCast_self]

/-- The other mixed projection. -/
theorem mixJ_apply (x : Vec Ideal S768x384 .f32) (w : Vec Ideal S128x384 .f32) (b : Vec Ideal S128 .f32)
    (h : Vec Ideal S128x128 .f32) (l : Fin 768) (e : Fin 128) :
    k0_pay5 (F := Ideal) x w b h (ix2 l e) = ∑ d : Fin 128, k0_pay3 (F := Ideal) x w b (ix2 l d) * h (ix2 e d) := by
  unfold k0_pay5
  show FloatOps.matmul dot_S768x128_S128x128_S768x128_1_0_0_1_n_n none
      (truncf .bf16 (k0_pay3 (F := Ideal) x w b) bitsLt_bf16_f32)
      (transpose S128x128 [1, 0] (truncf .bf16 (shapeCast S128x128 h shapeCasts_S128x128_S128x128) bitsLt_bf16_f32)
        transposes_S128x128_p1_0_S128x128)
      (constant S768x128 .f32 0x00000000#32) (ix2 l e) = _
  rw [dotB_plain, Cert.LibDense.matmul_plain_zero_apply]
  refine Finset.sum_congr rfl fun d _ => ?_
  rw [transpose_ix2_apply]
  show k0_pay3 (F := Ideal) x w b (ix2 l d) * shapeCast S128x128 h shapeCasts_S128x128_S128x128 (ix2 e d) = _
  rw [shapeCast_self]

end Cert.KernelIdeal.ProjValue

end
-- ==== Proof.KSpec.lean ====
/-
  The projection kernel's four result arrays are the specification's projections and mixed projections.

  The kernel is handed the sequence with its leading axis of one dropped, and the two halves of the mixing matrix cut
  out by the host: columns 0 … 127 and columns 128 … 255. Read through those, its results at (l, d) are
  `proj s w b l d` and `mix (proj s w b) wm o l d` with `o` the half's first column.
-/
import proofs.«180195_j3143916061385_1_alg».proof.Proof.KProj
import proofs.«180195_j3143916061385_1_alg».proof.Proof.Spec
import Idealize.ShloMosaic.Lib.ValueIdx
import Idealize.ShloMosaic.Lib.ValueLayout

noncomputable section

namespace Cert.KernelIdeal.SpecValue

open Idealize.ShloMosaic Idealize.ShloMosaic.ValueIdx Cert.KernelIdeal Cert.KernelIdeal.Gen Cert.KernelIdeal.ProjValue
open Cert.PairSpec

/-- The first projection's array. -/
theorem si_apply (s : Vec Ideal S1x768x384 .f32) (w : Vec Ideal S128x384 .f32) (b : Vec Ideal S128 .f32)
    (l : Fin 768) (d : Fin 128) :
    k0_pay2 (F := Ideal) (shapeCast S768x384 s shapeCasts_S1x768x384_S768x384) w b (ix2 l d) = proj s w b l d := by
  rw [projI_apply]
  unfold proj
  refine congrArg (· + b (ix1 d)) (Finset.sum_congr rfl fun p _ => ?_)
  rw [shapeCast_1ab_ab_apply]

/-- The second projection's array. -/
theorem sj_apply (s : Vec Ideal S1x768x384 .f32) (w : Vec Ideal S128x384 .f32) (b : Vec Ideal S128 .f32)
    (l : Fin 768) (d : Fin 128) :
    k0_pay3 (F := Ideal) (shapeCast S768x384 s shapeCasts_S1x768x384_S768x384) w b (ix2 l d) = proj s w b l d := by
  rw [projJ_apply]
  unfold proj
  refine congrArg (· + b (ix1 d)) (Finset.sum_congr rfl fun p _ => ?_)
  rw [shapeCast_1ab_ab_apply]

/-- The first mixed projection's array: the left half of the mixing matrix. -/
theorem zi_apply (s : Vec Ideal S1x768x384 .f32) (w : Vec Ideal S128x384 .f32) (b : Vec Ideal S128 .f32)
    (wm : Vec Ideal S128x256 .f32) (l : Fin 768) (e : Fin 128) :
    k0_pay4 (F := Ideal) (shapeCast S768x384 s shapeCasts_S1x768x384_S768x384) w b
        (extractStridedSlice S128x128 ![0, 0] wm slices_S128x256_S128x128_0_0) (ix2 l e)
      = mix (proj s w b) wm 0 (by omega) l e := by
  rw [mixI_apply]
  unfold mix
  refine Finset.sum_congr rfl fun d _ => ?_
  rw [si_apply, slice2_axis1_apply 0 wm slices_S128x256_S128x128_0_0 e d (col 0 (by omega) d) rfl]

/-- The second mixed projection's array: the right half of the mixing matrix. -/
theorem zj_apply (s : Vec Ideal S1x768x384 .f32) (w : Vec Ideal S128x384 .f32) (b : Vec Ideal S128 .f32)
    (wm : Vec Ideal S128x256 .f32) (l : Fin 768) (e : Fin 128) :
    k0_pay5 (F := Ideal) (shapeCast S768x384 s shapeCasts_S1x768x384_S768x384) w b
        (extractStridedSlice S128x128 ![0, 128] wm slices_S128x256_S128x128_0_128) (ix2 l e)
      = mix (proj s w b) wm 128 (by omega) l e := by
  rw [mixJ_apply]
  unfold mix
  refine Finset.sum_congr rfl fun d _ => ?_
  rw [sj_apply, slice2_axis1_apply 128 wm slices_S128x256_S128x128_0_128 e d (col 128 (by omega) d) rfl]

end Cert.KernelIdeal.SpecValue

end
-- ==== Proof.Chain.lean ====
/-
  The result array at the end of the run is the pair map of the launch contents.

  Reading the last boundary's contents back through the program: the result is the combine kernel's array with a
  leading axis of one; that array is the one whole-array function of the five arrays the second region finds; four of
  those are the projection kernel's results, which are its payloads of what the first region finds, and the fifth is
  the last bias, untouched; the first region finds the sequence reshaped, the weights and biases untouched, and the two
  halves of the mixing matrix. Entry by entry that is the specification.
-/
import proofs.«180195_j3143916061385_1_alg».proof.Proof.Gen.KernelIdeal.Frame
import proofs.«180195_j3143916061385_1_alg».proof.Proof.Region0
import proofs.«180195_j3143916061385_1_alg».proof.Proof.Region1
import proofs.«180195_j3143916061385_1_alg».proof.Proof.KSpec
import proofs.«180195_j3143916061385_1_alg».proof.Proof.Spec
import Idealize.ShloMosaic.Lib.ValueIdx
import Idealize.ShloMosaic.Lib.StableHlo.Run
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Idealize.ShloMosaic.StableHlo
open Cert.PairSpec

variable (m : (ℓ : Loc nD τ sig) → Buf (Elt Ideal) ℓ) (ρ : Dev nD → PrngReg)

/-! ## What the first region finds -/

theorem V1_v0 (c : Dev nD) :
    V1 m ρ c main_v0 = shapeCast S768x384 (m ((c : Thread nD τ).loc main_arg0)) shapeCasts_S1x768x384_S768x384 := by
  show StableHlo.after hostOps0 (W0 m ρ c) (Proc.devRef .tc main_v0) = _
  after_results
  rfl

theorem V1_v1 (c : Dev nD) :
    V1 m ρ c main_v1 = extractStridedSlice S128x128 ![0, 0] (m ((c : Thread nD τ).loc main_arg5)) slices_S128x256_S128x128_0_0 := by
  show StableHlo.after hostOps0 (W0 m ρ c) (Proc.devRef .tc main_v1) = _
  after_results

theorem V1_v2 (c : Dev nD) :
    V1 m ρ c main_v2 = extractStridedSlice S128x128 ![0, 128] (m ((c : Thread nD τ).loc main_arg5)) slices_S128x256_S128x128_0_128 := by
  show StableHlo.after hostOps0 (W0 m ρ c) (Proc.devRef .tc main_v2) = _
  after_results

theorem V1_arg1 (c : Dev nD) : V1 m ρ c main_arg1 = (m ((c : Thread nD τ).loc main_arg1)) := by
  show StableHlo.after hostOps0 (W0 m ρ c) (Proc.devRef .tc main_arg1) = _
  after_results

theorem V1_arg2 (c : Dev nD) : V1 m ρ c main_arg2 = (m ((c : Thread nD τ).loc main_arg2)) := by
  show StableHlo.after hostOps0 (W0 m ρ c) (Proc.devRef .tc main_arg2) = _
  after_results

theorem V1_arg3 (c : Dev nD) : V1 m ρ c main_arg3 = (m ((c : Thread nD τ).loc main_arg3)) := by
  show StableHlo.after hostOps0 (W0 m ρ c) (Proc.devRef .tc main_arg3) = _
  after_results

theorem V1_arg4 (c : Dev nD) : V1 m ρ c main_arg4 = (m ((c : Thread nD τ).loc main_arg4)) := by
  show StableHlo.after hostOps0 (W0 m ρ c) (Proc.devRef .tc main_arg4) = _
  after_results

theorem V1_arg6 (c : Dev nD) : V1 m ρ c main_arg6 = (m ((c : Thread nD τ).loc main_arg6)) := by
  show StableHlo.after hostOps0 (W0 m ρ c) (Proc.devRef .tc main_arg6) = _
  after_results

/-! ## What the second region finds -/

/-- The first projection, as the projection kernel left it. -/
theorem V2_si (c : Dev nD) :
    Region1.aSi (V2 m ρ) c = k0_pay2 (F := Ideal) (V1 m ρ c main_v0) (V1 m ρ c main_arg1) (V1 m ρ c main_arg2) :=
  (W2_arr m ρ c 7).trans (Region0.arr_7 (V1 m ρ) c)

theorem V2_sj (c : Dev nD) :
    Region1.aSj (V2 m ρ) c = k0_pay3 (F := Ideal) (V1 m ρ c main_v0) (V1 m ρ c main_arg3) (V1 m ρ c main_arg4) :=
  (W2_arr m ρ c 8).trans (Region0.arr_8 (V1 m ρ) c)

theorem V2_zi (c : Dev nD) :
    Region1.aZi (V2 m ρ) c
      = k0_pay4 (F := Ideal) (V1 m ρ c main_v0) (V1 m ρ c main_arg1) (V1 m ρ c main_arg2) (V1 m ρ c main_v1) :=
  (W2_arr m ρ c 9).trans (Region0.arr_9 (V1 m ρ) c)

theorem V2_zj (c : Dev nD) :
    Region1.aZj (V2 m ρ) c
      = k0_pay5 (F := Ideal) (V1 m ρ c main_v0) (V1 m ρ c main_arg3) (V1 m ρ c main_arg4) (V1 m ρ c main_v2) :=
  (W2_arr m ρ c 10).trans (Region0.arr_10 (V1 m ρ) c)

/-- The last bias: the projection kernel does not write it. -/
theorem V2_bm (c : Dev nD) : Region1.aBm (V2 m ρ) c = (m ((c : Thread nD τ).loc main_arg6)) :=
  (W2_of_ne m ρ c main_arg6 (by decide)).trans (V1_arg6 m ρ c)

/-! ## The result -/

/-- The combine kernel's array after its region. -/
theorem W3_v4 (c : Dev nD) :
    W3 m ρ c (Proc.devRef .tc main_v4)
      = Region1.comb (Region1.aSi (V2 m ρ) c) (Region1.aZi (V2 m ρ) c) (Region1.aSj (V2 m ρ) c) (Region1.aZj (V2 m ρ) c)
          (Region1.aBm (V2 m ρ) c) :=
  (W3_arr m ρ c 5).trans (Region1.arr_5 (V2 m ρ) c)

/-- The result array: that array with a leading axis of one. -/
theorem W4_v5 (c : Dev nD) :
    W4 m ρ c (Proc.devRef .tc main_v5)
      = broadcastInDim S1x768x768x128 ![1, 2, 3] bcast_S768x768x128_S1x768x768x128_1_2_3 (W3 m ρ c (Proc.devRef .tc main_v4)) := by
  show StableHlo.after hostOps2 (W3 m ρ c) (Proc.devRef .tc main_v5) = _
  after_results

/-- The result array at the end of the run is the specification's array of the launch contents. -/
theorem result_eq (c : Dev nD) :
    W4 m ρ c (Proc.devRef .tc main_v5)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W4_v5, W3_v4]
  funext idx
  obtain ⟨u, i, j, d, rfl⟩ : ∃ (u : Fin 1) (i j : Fin 768) (d : Fin 128), idx = ix4 u i j d :=
    ⟨idx 0, idx 1, idx 2, idx 3, eq_ix4 idx⟩
  rw [G_ix4]
  refine (broadcastInDim_apply ![1, 2, 3] bcast_S768x768x128_S1x768x768x128_1_2_3 _ (ix4 u i j d) (ix3 i j d) (fun a => by
    match a with
    | ⟨0, _⟩ => show i.val = if (768 : Nat) = 1 then 0 else i.val; rw [if_neg (by decide)]
    | ⟨1, _⟩ => show j.val = if (768 : Nat) = 1 then 0 else j.val; rw [if_neg (by decide)]
    | ⟨2, _⟩ => show d.val = if (128 : Nat) = 1 then 0 else d.val; rw [if_neg (by decide)])).trans ?_
  rw [Region1.comb_ix3]
  unfold Region1.combAt pair
  rw [V2_si, V2_sj, V2_zi, V2_zj, V2_bm, V1_v0, V1_v1, V1_v2, V1_arg1, V1_arg2, V1_arg3, V1_arg4,
    SpecValue.si_apply, SpecValue.sj_apply, SpecValue.zi_apply, SpecValue.zj_apply]

end Cert.KernelIdeal.Chain

end
-- ==== Proof.RefValue.lean ====
/-
  The reference program's result is the pair map of the specification.

  The reference contracts the sequence with each weight matrix on their last axes and adds the bias laid along the rows;
  it contracts each projection with a half of the mixing matrix; it lays the first mixed projection along a new third
  axis and the second along a new second axis, adds them, adds the bias laid along everything, and adds the product of
  the two projections laid out the same way. Read at (0, i, j, d), stage by stage, that is
  `((zi i d + zj j d) + bm d) + si i d · sj j d`.
-/
import proofs.«180195_j3143916061385_1_alg».proof.Proof.Gen.ReferenceIdeal.Run
import proofs.«180195_j3143916061385_1_alg».proof.Proof.Gen.ReferenceIdeal.Read
import proofs.«180195_j3143916061385_1_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.PairSpec

/-- The first projection, at row `l` and channel `d`. -/
theorem projI_ref (x0 : (⟨S1x768x384, .f32⟩ : BufTy).Contents (Elt Ideal)) (x1 : (⟨S128x384, .f32⟩ : BufTy).Contents (Elt Ideal)) (x2 : (⟨S128, .f32⟩ : BufTy).Contents (Elt Ideal)) (u : Fin 1) (l : Fin 768) (d : Fin 128) :
    val_main_v3 (F := Ideal) x0 x1 x2 (ix3 u l d) = proj x0 x1 x2 l d := by
  obtain rfl : u = 0 := Subsingleton.elim _ _
  rw [val_main_v3_apply, val_main_v0_apply, val_main_v2_apply, val_main_v1_apply]
  have e1 : ∀ k : Fin 384, lidx_main_v0 (ix3 (0 : Fin 1) l d) k = ix3 (0 : Fin 1) l k :=
    fun k => funext fun a => Fin.ext (by match a with | ⟨0, _⟩ => rfl | ⟨1, _⟩ => rfl | ⟨2, _⟩ => rfl)
  have e2 : ∀ k : Fin 384, ridx_main_v0 (ix3 (0 : Fin 1) l d) k = ix2 d k :=
    fun k => funext fun a => Fin.ext (by match a with | ⟨0, _⟩ => rfl | ⟨1, _⟩ => rfl)
  have e3 : idx_main_v1 (idx_main_v2 (ix3 (0 : Fin 1) l d)) = ix1 d := funext fun a => Fin.ext (by match a with | ⟨0, _⟩ => rfl)
  simp only [e1, e2, e3]
  rfl

/-- The second projection, at row `l` and channel `d`. -/
theorem projJ_ref (x0 : (⟨S1x768x384, .f32⟩ : BufTy).Contents (Elt Ideal)) (x3 : (⟨S128x384, .f32⟩ : BufTy).Contents (Elt Ideal)) (x4 : (⟨S128, .f32⟩ : BufTy).Contents (Elt Ideal)) (u : Fin 1) (l : Fin 768) (d : Fin 128) :
    val_main_v7 (F := Ideal) x0 x3 x4 (ix3 u l d) = proj x0 x3 x4 l d := by
  obtain rfl : u = 0 := Subsingleton.elim _ _
  rw [val_main_v7_apply, val_main_v4_apply, val_main_v6_apply, val_main_v5_apply]
  have e1 : ∀ k : Fin 384, lidx_main_v4 (ix3 (0 : Fin 1) l d) k = ix3 (0 : Fin 1) l k :=
    fun k => funext fun a => Fin.ext (by match a with | ⟨0, _⟩ => rfl | ⟨1, _⟩ => rfl | ⟨2, _⟩ => rfl)
  have e2 : ∀ k : Fin 384, ridx_main_v4 (ix3 (0 : Fin 1) l d) k = ix2 d k :=
    fun k => funext fun a => Fin.ext (by match a with | ⟨0, _⟩ => rfl | ⟨1, _⟩ => rfl)
  have e3 : idx_main_v5 (idx_main_v6 (ix3 (0 : Fin 1) l d)) = ix1 d := funext fun a => Fin.ext (by match a with | ⟨0, _⟩ => rfl)
  simp only [e1, e2, e3]
  rfl

/-- The first mixed projection: the left half of the mixing matrix. -/
theorem mixI_ref (x0 : (⟨S1x768x384, .f32⟩ : BufTy).Contents (Elt Ideal)) (x1 : (⟨S128x384, .f32⟩ : BufTy).Contents (Elt Ideal)) (x2 : (⟨S128, .f32⟩ : BufTy).Contents (Elt Ideal)) (x5 : (⟨S128x256, .f32⟩ : BufTy).Contents (Elt Ideal))
    (u : Fin 1) (l : Fin 768) (e : Fin 128) :
    val_main_v9 (F := Ideal) x0 x1 x2 x5 (ix3 u l e) = mix (proj x0 x1 x2) x5 0 (by omega) l e := by
  rw [val_main_v9_apply]
  unfold mix
  refine Finset.sum_congr rfl fun k _ => ?_
  have e1 : lidx_main_v9 (ix3 u l e) k = ix3 u l k := funext fun a => Fin.ext (by match a with | ⟨0, _⟩ => rfl | ⟨1, _⟩ => rfl | ⟨2, _⟩ => rfl)
  have e2 : idx_main_v8 (ridx_main_v9 (ix3 u l e) k) = ix2 e (col 0 (by omega) k) :=
    funext fun a => Fin.ext (by
      match a with
      | ⟨0, _⟩ => rfl
      | ⟨1, _⟩ => show k.val = 0 + k.val; omega)
  rw [e1, projI_ref, val_main_v8_apply, e2]

/-- The second mixed projection: the right half of the mixing matrix. -/
theorem mixJ_ref (x0 : (⟨S1x768x384, .f32⟩ : BufTy).Contents (Elt Ideal)) (x3 : (⟨S128x384, .f32⟩ : BufTy).Contents (Elt Ideal)) (x4 : (⟨S128, .f32⟩ : BufTy).Contents (Elt Ideal)) (x5 : (⟨S128x256, .f32⟩ : BufTy).Contents (Elt Ideal))
    (u : Fin 1) (l : Fin 768) (e : Fin 128) :
    val_main_v11 (F := Ideal) x0 x3 x4 x5 (ix3 u l e) = mix (proj x0 x3 x4) x5 128 (by omega) l e := by
  rw [val_main_v11_apply]
  unfold mix
  refine Finset.sum_congr rfl fun k _ => ?_
  have e1 : lidx_main_v11 (ix3 u l e) k = ix3 u l k := funext fun a => Fin.ext (by match a with | ⟨0, _⟩ => rfl | ⟨1, _⟩ => rfl | ⟨2, _⟩ => rfl)
  have e2 : idx_main_v10 (ridx_main_v11 (ix3 u l e) k) = ix2 e (col 128 (by omega) k) :=
    funext fun a => Fin.ext (by
      match a with
      | ⟨0, _⟩ => rfl
      | ⟨1, _⟩ => rfl)
  rw [e1, projJ_ref, val_main_v10_apply, e2]

/-- The reference's last stage is the specification's array. -/
theorem ref_eq (x0 : (⟨S1x768x384, .f32⟩ : BufTy).Contents (Elt Ideal)) (x1 : (⟨S128x384, .f32⟩ : BufTy).Contents (Elt Ideal)) (x2 : (⟨S128, .f32⟩ : BufTy).Contents (Elt Ideal)) (x3 : (⟨S128x384, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal)) :
    val_main_v25 (F := Ideal) x0 x1 x2 x3 x4 x5 x6 = G x0 x1 x2 x3 x4 x5 x6 := by
  funext idx
  obtain ⟨u, i, j, d, rfl⟩ : ∃ (u : Fin 1) (i j : Fin 768) (d : Fin 128), idx = ix4 u i j d :=
    ⟨idx 0, idx 1, idx 2, idx 3, eq_ix4 idx⟩
  rw [G_ix4]
  unfold pair
  rw [val_main_v25_apply, val_main_v19_apply, val_main_v16_apply, val_main_v24_apply, val_main_v14_apply,
    val_main_v12_apply, val_main_v15_apply, val_main_v13_apply, val_main_v18_apply, val_main_v17_apply,
    val_main_v22_apply, val_main_v20_apply, val_main_v23_apply, val_main_v21_apply]
  have a1 : idx_main_v12 (idx_main_v14 (ix4 u i j d)) = ix3 (0 : Fin 1) i d :=
    funext fun a => Fin.ext (by match a with | ⟨0, _⟩ => rfl | ⟨1, _⟩ => rfl | ⟨2, _⟩ => rfl)
  have a2 : idx_main_v13 (idx_main_v15 (ix4 u i j d)) = ix3 (0 : Fin 1) j d :=
    funext fun a => Fin.ext (by match a with | ⟨0, _⟩ => rfl | ⟨1, _⟩ => rfl | ⟨2, _⟩ => rfl)
  have a3 : idx_main_v17 (idx_main_v18 (ix4 u i j d)) = ix1 d := funext fun a => Fin.ext (by match a with | ⟨0, _⟩ => rfl)
  have a4 : idx_main_v20 (idx_main_v22 (ix4 u i j d)) = ix3 (0 : Fin 1) i d :=
    funext fun a => Fin.ext (by match a with | ⟨0, _⟩ => rfl | ⟨1, _⟩ => rfl | ⟨2, _⟩ => rfl)
  have a5 : idx_main_v21 (idx_main_v23 (ix4 u i j d)) = ix3 (0 : Fin 1) j d :=
    funext fun a => Fin.ext (by match a with | ⟨0, _⟩ => rfl | ⟨1, _⟩ => rfl | ⟨2, _⟩ => rfl)
  rw [a1, a2, a3, a4, a5, mixI_ref, mixJ_ref, projI_ref, projJ_ref]
  rfl

end Cert.ReferenceIdeal.RefValue

end
-- ==== Proof.lean ====
/-
  A pair map from two projections of one sequence: the kernel against its jnp reference, over the extended reals.

  Both programs compute, for rows `i`, `j` of a sequence of 768 rows and a channel `d`,
  `((zi i d + zj j d) + bm d) + si i d · sj j d`, where `si`, `sj` are two affine projections of the sequence
  (`∑ p, s l p · w d p + b d`) and `zi`, `zj` are those projections contracted with the left and the right half of a
  128 × 256 mixing matrix. The kernel does it in two launches — one computes the four 768 × 128 arrays, the other
  tiles the 768 × 768 × 128 result into 64 × 128 × 128 blocks —; the reference is a straight line of contractions,
  broadcasts, sums and one product. On the extended reals a change of float format is the identity and a product
  accumulated into zeros is the plain sum, so the two results are the same tree of sums and products of the same
  operands in the same order: no law of arithmetic is used, and the inputs' finiteness is never opened.

  Proof/Spec.lean states that tree as one function `G` of the seven argument arrays. Proof/KProj.lean and
  Proof/KComb.lean read the two kernel bodies entry by entry, Proof/Region0.lean and Proof/Region1.lean carry the blocks
  to whole arrays, Proof/KRun.lean names the result array after the run, Proof/Chain.lean reads it back to `G` of the
  launch contents, and Proof/RefValue.lean reads the reference's result as the same `G`.
-/
import proofs.«180195_j3143916061385_1_alg».proof.Defs
import proofs.«180195_j3143916061385_1_alg».proof.Proof.Gen.Kernel
import proofs.«180195_j3143916061385_1_alg».proof.Proof.Gen.Kernel.Frame
import proofs.«180195_j3143916061385_1_alg».proof.Proof.Gen.KernelIdeal
import proofs.«180195_j3143916061385_1_alg».proof.Proof.Gen.KernelIdeal.Frame
import proofs.«180195_j3143916061385_1_alg».proof.Proof.Gen.ReferenceIdeal
import proofs.«180195_j3143916061385_1_alg».proof.Proof.Gen.ReferenceIdeal.Run
import proofs.«180195_j3143916061385_1_alg».proof.Proof.Gen.ReferenceIdeal.Read
import proofs.«180195_j3143916061385_1_alg».proof.Proof.Gen.Pre_finite_inputs
import proofs.«180195_j3143916061385_1_alg».proof.Proof.Spec
import proofs.«180195_j3143916061385_1_alg».proof.Proof.KRun
import proofs.«180195_j3143916061385_1_alg».proof.Proof.Chain
import proofs.«180195_j3143916061385_1_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments alone: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- From memories that agree on the seven arguments both programs end with the result array at `G` of the arguments. -/
theorem algebraic : Cert.algebraic_KernelIdeal_ReferenceIdeal := by
  intro m ρ m' ρ' _ hagree
  refine ⟨fun c => Cert.PairSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    refine (Cert.ReferenceIdeal.Read.val_main_v25_eq (F := Ideal) _ _ _ _ _ _ _).trans ?_
    rw [Cert.ReferenceIdeal.RefValue.ref_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
